-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S16x4096 .f32) (main_arg3 : FVec F S4096x16 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S16x4096 : Shape := ⟨2, ![16, 4096]⟩
abbrev S4096x16 : Shape := ⟨2, ![4096, 16]⟩
abbrev S1024x1024 : Shape := ⟨2, ![1024, 1024]⟩
abbrev S512x1024 : Shape := ⟨2, ![512, 1024]⟩
abbrev S16x1024 : Shape := ⟨2, ![16, 1024]⟩
abbrev S512x16 : Shape := ⟨2, ![512, 16]⟩
abbrev S1024x512 : Shape := ⟨2, ![1024, 512]⟩
abbrev S1024x16 : Shape := ⟨2, ![1024, 16]⟩

abbrev nBuf : Space → Nat
  | .hbm => 5
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S512x16, .f32⟩
  | .local _ .vmem, ⟨7, _⟩ => ⟨S512x16, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S16x1024_S16x1024_0_0 : ∀ a, (![0, 0] : Fin 2 → Nat) a + S16x1024.size a ≤ S16x1024.size a
  h_S16x1024 : 0 < S16x1024.numel
  inb_S512x16_S512x16_0_0 : ∀ a, (![0, 0] : Fin 2 → Nat) a + S512x16.size a ≤ S512x16.size a
  h_S512x16 : 0 < S512x16.numel
  dot_S1024x1024_S512x1024_S1024x512_1_1_0_0_n_n_wf : DotDims.WF S1024x1024 S512x1024 S1024x512 [1] [1] [0] [0] [] []
  dot_S1024x1024_S16x1024_S1024x16_1_1_0_0_n_n_wf : DotDims.WF S1024x1024 S16x1024 S1024x16 [1] [1] [0] [0] [] []
  dot_S1024x16_S512x16_S1024x512_1_1_0_0_n_n_wf : DotDims.WF S1024x16 S512x16 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S4096x16.size a
  hwx0_3 : ∀ i : grid0.Coords, EltTy.bits .f32 = 32 ∨ (Rect.block (s := S4096x16) S512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x4096.size a
  hwx0_4 : ∀ i : grid0.Coords, EltTy.bits .f32 = 32 ∨ (Rect.block (s := S8192x4096) S1024x512.size (cc0_transform_4 i) (hinb0_4 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x1024_S16x1024_S1024x16_1_1_0_0_n_n : DotDims S1024x1024 S16x1024 S1024x16 where
  lhsContracting := [1]
  rhsContracting := [1]
  lhsNonContracting := [0]
  rhsNonContracting := [0]
  lhsBatch := []
  rhsBatch := []
  wf := dot_S1024x1024_S16x1024_S1024x16_1_1_0_0_n_n_wf
def dot_S1024x16_S512x16_S1024x512_1_1_0_0_n_n : DotDims S1024x16 S512x16 S1024x512 where
  lhsContracting := [1]
  rhsContracting := [1]
  lhsNonContracting := [0]
  rhsNonContracting := [0]
  lhsBatch := []
  rhsBatch := []
  wf := dot_S1024x16_S512x16_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S16x4096 : Shape := ⟨2, ![16, 4096]⟩
abbrev S4096x16 : Shape := ⟨2, ![4096, 16]⟩
abbrev S8192x16 : Shape := ⟨2, ![8192, 16]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S8192x4096, .f32⟩
  | .hbm, ⟨5, _⟩ => ⟨S8192x16, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []
  dot_S8192x4096_S16x4096_S8192x16_1_1_0_0_n_n_wf : DotDims.WF S8192x4096 S16x4096 S8192x16 [1] [1] [0] [0] [] []
  dot_S8192x16_S4096x16_S8192x4096_1_1_0_0_n_n_wf : DotDims.WF S8192x16 S4096x16 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf
def dot_S8192x4096_S16x4096_S8192x16_1_1_0_0_n_n : DotDims S8192x4096 S16x4096 S8192x16 where
  lhsContracting := [1]
  rhsContracting := [1]
  lhsNonContracting := [0]
  rhsNonContracting := [0]
  lhsBatch := []
  rhsBatch := []
  wf := dot_S8192x4096_S16x4096_S8192x16_1_1_0_0_n_n_wf
def dot_S8192x16_S4096x16_S8192x4096_1_1_0_0_n_n : DotDims S8192x16 S4096x16 S8192x4096 where
  lhsContracting := [1]
  rhsContracting := [1]
  lhsNonContracting := [0]
  rhsNonContracting := [0]
  lhsBatch := []
  rhsBatch := []
  wf := dot_S8192x16_S4096x16_S8192x4096_1_1_0_0_n_n_wf

class Facts : Prop extends Facts₀ where

variable [Facts]
-- ==== Proof.LibBlockSum.lean ====
/-
  A sum over a range of length J·K, cut into J consecutive blocks of length K, in any commutative additive monoid
  (so in particular on the extended reals, where only associativity and commutativity of + are available).
-/
import Mathlib.Algebra.BigOperators.Fin
import Mathlib.Algebra.BigOperators.Intervals

namespace Cert.Lib

open Finset

/-- The sum of `f` over `0 … J·K - 1` is the sum over the blocks `s < J` of the sums of `f (K·s + l)` over `l < K`. -/
theorem sum_range_blocks {β : Type*} [AddCommMonoid β] (f : ℕ → β) (K : ℕ) :
    ∀ J : ℕ, ∑ i ∈ range (J * K), f i = ∑ s ∈ range J, ∑ l ∈ range K, f (K * s + l)
  | 0 => by simp
  | J + 1 => by
    rw [Nat.succ_mul, sum_range_add, sum_range_blocks f K J, sum_range_succ, Nat.mul_comm J K]

/-- The same with the whole sum and the inner sums indexed by `Fin`. -/
theorem sum_fin_blocks {β : Type*} [AddCommMonoid β] (f : ℕ → β) (J K : ℕ) :
    ∑ i : Fin (J * K), f i.val = ∑ s ∈ range J, ∑ l : Fin K, f (K * s + l.val) := by
  rw [Fin.sum_univ_eq_sum_range (fun i => f i) (J * K), sum_range_blocks f K J]
  refine sum_congr rfl fun s _ => ?_
  exact (Fin.sum_univ_eq_sum_range (fun l => f (K * s + l)) K).symm

end Cert.Lib
-- ==== Proof.Spec.lean ====
/-
  What both programs compute, as one function of the four argument arrays, index by index, over the extended reals:

    out[n, o] = ∑ₖ x[n,k]·w[o,k]  +  (∑ᵣ (∑ₖ x[n,k]·a[r,k]) · b[o,r]) · 2

  (the frozen linear map plus the scaled low-rank correction), and the one algebraic fact that joins the two sides:
  a contraction over the 4096 input features is the sum, over four consecutive blocks of 1024 features, of the blocks'
  partial contractions. Only associativity and commutativity of + are used, so no finiteness is needed.
-/
import Idealize.ShloMosaic.PureOps.Ideal
import Idealize.ShloMosaic.Lib.ValueIdx
import proofs.«105855_j22780506538133_1_alg».proof.Proof.LibBlockSum

noncomputable section

namespace Cert.Spec

open Idealize.ShloMosaic Idealize.ShloMosaic.ValueIdx
open scoped BigOperators

/-- Row `n` of `u` against row `o` of `v`, contracted over the common second axis. -/
def rowDot {N M K : Nat} (u : (⟨2, ![N, K]⟩ : Shape).Idx → EReal) (v : (⟨2, ![M, K]⟩ : Shape).Idx → EReal)
    (n : Fin N) (o : Fin M) : EReal :=
  ∑ k : Fin K, u (ix2 n k) * v (ix2 o k)

/-- The same contraction restricted to the `s`-th block of `B` consecutive features (a term past the last feature,
    which no block of an exact cut has, reads as zero). -/
def blockDot {N M K : Nat} (B : Nat) (u : (⟨2, ![N, K]⟩ : Shape).Idx → EReal) (v : (⟨2, ![M, K]⟩ : Shape).Idx → EReal)
    (n : Fin N) (o : Fin M) (s : Nat) : EReal :=
  ∑ l : Fin B, (if h : B * s + l.val < K then u (ix2 n ⟨B * s + l.val, h⟩) * v (ix2 o ⟨B * s + l.val, h⟩) else 0)

/-- A whole contraction over `K = J·B` features is the sum of its `J` blocks' contractions. -/
theorem rowDot_eq_sum_blockDot {N M K : Nat} (J B : Nat) (hK : K = J * B) (u : (⟨2, ![N, K]⟩ : Shape).Idx → EReal)
    (v : (⟨2, ![M, K]⟩ : Shape).Idx → EReal) (n : Fin N) (o : Fin M) :
    rowDot u v n o = ∑ s ∈ Finset.range J, blockDot B u v n o s := by
  subst hK
  unfold rowDot blockDot
  have := Cert.Lib.sum_fin_blocks
    (fun i => if h : i < J * B then u (ix2 n ⟨i, h⟩) * v (ix2 o ⟨i, h⟩) else 0) J B
  rw [← this]
  exact Finset.sum_congr rfl fun k _ => by rw [dif_pos k.isLt]

/-- The result array: the linear map plus twice the low-rank correction (the scale kept as its binary pattern). -/
def lora (x : (⟨2, ![8192, 4096]⟩ : Shape).Idx → EReal) (w : (⟨2, ![4096, 4096]⟩ : Shape).Idx → EReal)
    (a : (⟨2, ![16, 4096]⟩ : Shape).Idx → EReal) (b : (⟨2, ![4096, 16]⟩ : Shape).Idx → EReal) :
    (⟨2, ![8192, 4096]⟩ : Shape).Idx → EReal := fun i =>
  rowDot x w (i 0) (i 1)
    + (∑ r : Fin 16, rowDot x a (i 0) r * b (ix2 (i 1) r)) * Ideal.ofBits .f32 0x40000000#32

end Cert.Spec

end
-- ==== Proof.RefSpec.lean ====
/-
  The reference program's result, read one operation at a time at the exact instance, is the specification: its three
  host contractions are the three sums, its broadcast scalar the scale, its multiply and add the outer operations.
-/
import proofs.«105855_j22780506538133_1_alg».proof.Proof.Gen.ReferenceIdeal.Read
import proofs.«105855_j22780506538133_1_alg».proof.Proof.Spec

noncomputable section

namespace Cert.ReferenceIdeal.RefSpec

open Cert.ReferenceIdeal Cert.ReferenceIdeal.Read Idealize.ShloMosaic Idealize.ShloMosaic.ValueIdx
open scoped BigOperators

/-- The operand indices of the three contractions, in coordinates: the row comes from the result index, the
    contracted feature from the summation index. -/
theorem lidx0 (i : S8192x4096.Idx) (k : Fin 4096) : lidx_main_v0 i k = ix2 (i 0) k :=
  funext fun a => by match a with | ⟨0, _⟩ => rfl | ⟨1, _⟩ => rfl
theorem ridx0 (i : S8192x4096.Idx) (k : Fin 4096) : ridx_main_v0 i k = ix2 (i 1) k :=
  funext fun a => by match a with | ⟨0, _⟩ => rfl | ⟨1, _⟩ => rfl
theorem lidx1 (i : S8192x4096.Idx) (r : Fin 16) (k : Fin 4096) : lidx_main_v1 (lidx_main_v2 i r) k = ix2 (i 0) k :=
  funext fun a => by match a with | ⟨0, _⟩ => rfl | ⟨1, _⟩ => rfl
theorem ridx1 (i : S8192x4096.Idx) (r : Fin 16) (k : Fin 4096) : ridx_main_v1 (lidx_main_v2 i r) k = ix2 r k :=
  funext fun a => by match a with | ⟨0, _⟩ => rfl | ⟨1, _⟩ => rfl
theorem ridx2 (i : S8192x4096.Idx) (r : Fin 16) : ridx_main_v2 i r = ix2 (i 1) r :=
  funext fun a => by match a with | ⟨0, _⟩ => rfl | ⟨1, _⟩ => rfl

/-- The reference's last stage is the specification of its four arguments. -/
theorem ref_eq_lora (x : (⟨S8192x4096, .f32⟩ : BufTy).Contents (Elt Ideal)) (w : (⟨S4096x4096, .f32⟩ : BufTy).Contents (Elt Ideal))
    (a : (⟨S16x4096, .f32⟩ : BufTy).Contents (Elt Ideal)) (b : (⟨S4096x16, .f32⟩ : BufTy).Contents (Elt Ideal)) :
    val_main_v5 (F := Ideal) x w a b = Cert.Spec.lora x w a b := by
  funext i
  rw [val_main_v5_apply, val_main_v4_apply, val_main_v0_apply, val_main_v2_apply, val_main_v3_apply, val_main_cst_apply]
  simp only [val_main_v1_apply, lidx0, ridx0, lidx1, ridx1, ridx2, Ideal.addf_def, Ideal.mulf_def, Ideal.ofBits_def]
  rfl

end Cert.ReferenceIdeal.RefSpec

end
-- ==== Proof.Pieces.lean ====
/-
  What the kernel body leaves in its two carried accumulators and in the output block, case by case, as pure values:
  each is one whole-block store whose payload reads whole blocks, so the pieces the body's run found collapse to the
  payload applied to the blocks the buffers held.
-/
import proofs.«105855_j22780506538133_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of every whole-block load and store of the body. -/
theorem hz : (![0, 0] : Fin 2 → Nat) = fun _ => 0 := funext fun a => by fin_cases a <;> rfl

/-- At the first feature block of a run the wide accumulator is reset and then updated: it ends at the update of the zero block by the point's `x` and `weight` blocks. -/
theorem base_first (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S16x1024 .f32) (harg5 : arg5.IsWhole) (arg6 : Memref sig .tc .vmem S512x16 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x16 .f32) (harg9 : arg9.IsWhole) (hc0 : cond0_0 i) (hc1 : ¬cond0_1 i) (x0 : Vec F S1024x1024 .f32) (x1 : Vec F S512x1024 .f32) (x2 : Vec F S16x1024 .f32) (x3 : Vec F S512x16 .f32) :
    sout0_A_0 c i arg3 harg3 arg4 harg4 arg5 harg5 arg6 harg6 arg7 harg7 arg8 harg8 arg9 harg9 hc0 hc1 x0 x1 x2 x3 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x512) hz]
  simp only [View.readAt_eq_ld, harg3.read_unread, harg4.read_unread, harg5.read_unread, harg6.read_unread, harg8.read_unread, harg9.read_unread, View.ld_unit_zero (S := S1024x1024) hz, View.ld_unit_zero (S := S512x1024) hz, View.ld_unit_zero (S := S16x1024) hz, View.ld_unit_zero (S := S512x16) hz, View.ld_unit_zero (S := S1024x512) hz, View.ld_unit_zero (S := S1024x16) hz, View.readCov_unit_zero (S := S1024x512) _ hz, View.readCov_unit_zero (S := S1024x16) _ hz]

/-- Likewise the narrow (rank-16) accumulator at the first feature block: the update of the zero block by the point's `x` and `lora_A` blocks. -/
theorem low_first (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S16x1024 .f32) (harg5 : arg5.IsWhole) (arg6 : Memref sig .tc .vmem S512x16 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x16 .f32) (harg9 : arg9.IsWhole) (hc0 : cond0_0 i) (hc1 : ¬cond0_1 i) (x0 : Vec F S1024x1024 .f32) (x1 : Vec F S512x1024 .f32) (x2 : Vec F S16x1024 .f32) (x3 : Vec F S512x16 .f32) :
    sout0_A_1 c i arg3 harg3 arg4 harg4 arg5 harg5 arg6 harg6 arg7 harg7 arg8 harg8 arg9 harg9 hc0 hc1 x0 x1 x2 x3 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x16) hz]
  simp only [View.readAt_eq_ld, harg3.read_unread, harg4.read_unread, harg5.read_unread, harg6.read_unread, harg8.read_unread, harg9.read_unread, View.ld_unit_zero (S := S1024x1024) hz, View.ld_unit_zero (S := S512x1024) hz, View.ld_unit_zero (S := S16x1024) hz, View.ld_unit_zero (S := S512x16) hz, View.ld_unit_zero (S := S1024x512) hz, View.ld_unit_zero (S := S1024x16) hz, View.readCov_unit_zero (S := S1024x512) _ hz, View.readCov_unit_zero (S := S1024x16) _ hz]

/-- At a middle feature block the wide accumulator ends at the update of what the point before left. -/
theorem base_mid (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S16x1024 .f32) (harg5 : arg5.IsWhole) (arg6 : Memref sig .tc .vmem S512x16 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x16 .f32) (harg9 : arg9.IsWhole) (hc0 : ¬cond0_0 i) (hc1 : ¬cond0_1 i) (x0 : Vec F S1024x1024 .f32) (x1 : Vec F S512x1024 .f32) (x2 : Vec F S16x1024 .f32) (x3 : Vec F S512x16 .f32) (xs0 : Vec F S1024x512 .f32) (xs1 : Vec F S1024x16 .f32) :
    sout0_B_0 c i arg3 harg3 arg4 harg4 arg5 harg5 arg6 harg6 arg7 harg7 arg8 harg8 arg9 harg9 hc0 hc1 x0 x1 x2 x3 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S1024x512) hz]
  simp only [View.readAt_eq_ld, harg3.read_unread, harg4.read_unread, harg5.read_unread, harg6.read_unread, harg8.read_unread, harg9.read_unread, View.ld_unit_zero (S := S1024x1024) hz, View.ld_unit_zero (S := S512x1024) hz, View.ld_unit_zero (S := S16x1024) hz, View.ld_unit_zero (S := S512x16) hz, View.ld_unit_zero (S := S1024x512) hz, View.ld_unit_zero (S := S1024x16) hz, View.readCov_unit_zero (S := S1024x512) _ hz, View.readCov_unit_zero (S := S1024x16) _ hz]

/-- At a middle feature block the narrow accumulator ends at the update of what the point before left. -/
theorem low_mid (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S16x1024 .f32) (harg5 : arg5.IsWhole) (arg6 : Memref sig .tc .vmem S512x16 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x16 .f32) (harg9 : arg9.IsWhole) (hc0 : ¬cond0_0 i) (hc1 : ¬cond0_1 i) (x0 : Vec F S1024x1024 .f32) (x1 : Vec F S512x1024 .f32) (x2 : Vec F S16x1024 .f32) (x3 : Vec F S512x16 .f32) (xs0 : Vec F S1024x512 .f32) (xs1 : Vec F S1024x16 .f32) :
    sout0_B_1 c i arg3 harg3 arg4 harg4 arg5 harg5 arg6 harg6 arg7 harg7 arg8 harg8 arg9 harg9 hc0 hc1 x0 x1 x2 x3 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S1024x16) hz]
  simp only [View.readAt_eq_ld, harg3.read_unread, harg4.read_unread, harg5.read_unread, harg6.read_unread, harg8.read_unread, harg9.read_unread, View.ld_unit_zero (S := S1024x1024) hz, View.ld_unit_zero (S := S512x1024) hz, View.ld_unit_zero (S := S16x1024) hz, View.ld_unit_zero (S := S512x16) hz, View.ld_unit_zero (S := S1024x512) hz, View.ld_unit_zero (S := S1024x16) hz, View.readCov_unit_zero (S := S1024x512) _ hz, View.readCov_unit_zero (S := S1024x16) _ hz]

/-- At the last feature block the wide accumulator is updated as at a middle one. -/
theorem base_last (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S16x1024 .f32) (harg5 : arg5.IsWhole) (arg6 : Memref sig .tc .vmem S512x16 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x16 .f32) (harg9 : arg9.IsWhole) (hc0 : ¬cond0_0 i) (hc1 : cond0_1 i) (x0 : Vec F S1024x1024 .f32) (x1 : Vec F S512x1024 .f32) (x2 : Vec F S16x1024 .f32) (x3 : Vec F S512x16 .f32) (xs0 : Vec F S1024x512 .f32) (xs1 : Vec F S1024x16 .f32) :
    sout0_C_0 c i arg3 harg3 arg4 harg4 arg5 harg5 arg6 harg6 arg7 harg7 arg8 harg8 arg9 harg9 hc0 hc1 x0 x1 x2 x3 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1024x512) hz]
  simp only [View.readAt_eq_ld, harg3.read_unread, harg4.read_unread, harg5.read_unread, harg6.read_unread, harg8.read_unread, harg9.read_unread, View.ld_unit_zero (S := S1024x1024) hz, View.ld_unit_zero (S := S512x1024) hz, View.ld_unit_zero (S := S16x1024) hz, View.ld_unit_zero (S := S512x16) hz, View.ld_unit_zero (S := S1024x512) hz, View.ld_unit_zero (S := S1024x16) hz, View.readCov_unit_zero (S := S1024x512) _ hz, View.readCov_unit_zero (S := S1024x16) _ hz]

/-- At the last feature block the narrow accumulator is updated as at a middle one. -/
theorem low_last (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S16x1024 .f32) (harg5 : arg5.IsWhole) (arg6 : Memref sig .tc .vmem S512x16 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x16 .f32) (harg9 : arg9.IsWhole) (hc0 : ¬cond0_0 i) (hc1 : cond0_1 i) (x0 : Vec F S1024x1024 .f32) (x1 : Vec F S512x1024 .f32) (x2 : Vec F S16x1024 .f32) (x3 : Vec F S512x16 .f32) (xs0 : Vec F S1024x512 .f32) (xs1 : Vec F S1024x16 .f32) :
    sout0_C_1 c i arg3 harg3 arg4 harg4 arg5 harg5 arg6 harg6 arg7 harg7 arg8 harg8 arg9 harg9 hc0 hc1 x0 x1 x2 x3 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1024x16) hz]
  simp only [View.readAt_eq_ld, harg3.read_unread, harg4.read_unread, harg5.read_unread, harg6.read_unread, harg8.read_unread, harg9.read_unread, View.ld_unit_zero (S := S1024x1024) hz, View.ld_unit_zero (S := S512x1024) hz, View.ld_unit_zero (S := S16x1024) hz, View.ld_unit_zero (S := S512x16) hz, View.ld_unit_zero (S := S1024x512) hz, View.ld_unit_zero (S := S1024x16) hz, View.readCov_unit_zero (S := S1024x512) _ hz, View.readCov_unit_zero (S := S1024x16) _ hz]

/-- At the last feature block the output block is written: the epilogue of the `lora_B` block and of both accumulators AFTER this point's updates. -/
theorem out_last (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S16x1024 .f32) (harg5 : arg5.IsWhole) (arg6 : Memref sig .tc .vmem S512x16 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x16 .f32) (harg9 : arg9.IsWhole) (hc0 : ¬cond0_0 i) (hc1 : cond0_1 i) (x0 : Vec F S1024x1024 .f32) (x1 : Vec F S512x1024 .f32) (x2 : Vec F S16x1024 .f32) (x3 : Vec F S512x16 .f32) (xs0 : Vec F S1024x512 .f32) (xs1 : Vec F S1024x16 .f32) :
    out0_C_4 c i arg3 harg3 arg4 harg4 arg5 harg5 arg6 harg6 arg7 harg7 arg8 harg8 arg9 harg9 hc0 hc1 x0 x1 x2 x3 xs0 xs1 = k0_pay6 x3 (k0_pay5 x0 x2 xs1) (k0_pay4 x0 x1 xs0) := by
  unfold out0_C_4
  rw [View.read_writes_eq_canon _ _ _ (cover0_C_4 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1024x512) hz]
  simp only [View.readAt_eq_ld, harg3.read_unread, harg4.read_unread, harg5.read_unread, harg6.read_unread, harg8.read_unread, harg9.read_unread, View.ld_unit_zero (S := S1024x1024) hz, View.ld_unit_zero (S := S512x1024) hz, View.ld_unit_zero (S := S16x1024) hz, View.ld_unit_zero (S := S512x16) hz, View.ld_unit_zero (S := S1024x512) hz, View.ld_unit_zero (S := S1024x16) hz, View.readCov_unit_zero (S := S1024x512) _ hz, View.readCov_unit_zero (S := S1024x16) _ hz]

end Cert.KernelIdeal.Pieces

end
-- ==== Proof.BodyValue.lean ====
/-
  The body's payloads at the exact instance, read at an index. A change of float format is the identity there, a
  product on the matrix unit into a zero accumulator is the plain sum of products over the contracted axis, so:
  the wide accumulator's update adds the block's partial contraction of an `x` row with a `weight` row, the narrow
  one's that of an `x` row with a `lora_A` row, and the epilogue adds to the wide accumulator the contraction of
  the narrow accumulator's row with a `lora_B` row, times the scale.
-/
import proofs.«105855_j22780506538133_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx
open scoped BigOperators

/-! ## The three contractions' operand indices, axis by axis -/

theorem lhs_base_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_base_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhs_base_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_base_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

theorem lhs_low_0 (i : S1024x16.Idx) (q : dot_S1024x1024_S16x1024_S1024x16_1_1_0_0_n_n.contr.Idx) :
    (dot_S1024x1024_S16x1024_S1024x16_1_1_0_0_n_n.lhsIdx i q 0).val = (i 0).val := by
  unfold DotDims.lhsIdx
  rw [dif_neg (show ¬(0 : Fin S1024x1024.rank) ∈ dot_S1024x1024_S16x1024_S1024x16_1_1_0_0_n_n.lhsBatch by decide), dif_pos (show (0 : Fin S1024x1024.rank) ∈ dot_S1024x1024_S16x1024_S1024x16_1_1_0_0_n_n.lhsNonContracting by decide)]
  rfl
theorem lhs_low_1 (i : S1024x16.Idx) (q : dot_S1024x1024_S16x1024_S1024x16_1_1_0_0_n_n.contr.Idx) :
    (dot_S1024x1024_S16x1024_S1024x16_1_1_0_0_n_n.lhsIdx i q 1).val = (q ⟨0, by decide⟩).val :=
  dot_S1024x1024_S16x1024_S1024x16_1_1_0_0_n_n.lhsIdx_val_of_single rfl i q
theorem rhs_low_0 (i : S1024x16.Idx) (q : dot_S1024x1024_S16x1024_S1024x16_1_1_0_0_n_n.contr.Idx) :
    (dot_S1024x1024_S16x1024_S1024x16_1_1_0_0_n_n.rhsIdx i q 0).val = (i 1).val := by
  unfold DotDims.rhsIdx
  rw [dif_neg (show ¬(0 : Fin S16x1024.rank) ∈ dot_S1024x1024_S16x1024_S1024x16_1_1_0_0_n_n.rhsBatch by decide), dif_pos (show (0 : Fin S16x1024.rank) ∈ dot_S1024x1024_S16x1024_S1024x16_1_1_0_0_n_n.rhsNonContracting by decide)]
  rfl
theorem rhs_low_1 (i : S1024x16.Idx) (q : dot_S1024x1024_S16x1024_S1024x16_1_1_0_0_n_n.contr.Idx) :
    (dot_S1024x1024_S16x1024_S1024x16_1_1_0_0_n_n.rhsIdx i q 1).val = (q ⟨0, by decide⟩).val :=
  dot_S1024x1024_S16x1024_S1024x16_1_1_0_0_n_n.rhsIdx_val_of_single rfl i q

theorem lhs_up_0 (i : S1024x512.Idx) (q : dot_S1024x16_S512x16_S1024x512_1_1_0_0_n_n.contr.Idx) :
    (dot_S1024x16_S512x16_S1024x512_1_1_0_0_n_n.lhsIdx i q 0).val = (i 0).val := by
  unfold DotDims.lhsIdx
  rw [dif_neg (show ¬(0 : Fin S1024x16.rank) ∈ dot_S1024x16_S512x16_S1024x512_1_1_0_0_n_n.lhsBatch by decide), dif_pos (show (0 : Fin S1024x16.rank) ∈ dot_S1024x16_S512x16_S1024x512_1_1_0_0_n_n.lhsNonContracting by decide)]
  rfl
theorem lhs_up_1 (i : S1024x512.Idx) (q : dot_S1024x16_S512x16_S1024x512_1_1_0_0_n_n.contr.Idx) :
    (dot_S1024x16_S512x16_S1024x512_1_1_0_0_n_n.lhsIdx i q 1).val = (q ⟨0, by decide⟩).val :=
  dot_S1024x16_S512x16_S1024x512_1_1_0_0_n_n.lhsIdx_val_of_single rfl i q
theorem rhs_up_0 (i : S1024x512.Idx) (q : dot_S1024x16_S512x16_S1024x512_1_1_0_0_n_n.contr.Idx) :
    (dot_S1024x16_S512x16_S1024x512_1_1_0_0_n_n.rhsIdx i q 0).val = (i 1).val := by
  unfold DotDims.rhsIdx
  rw [dif_neg (show ¬(0 : Fin S512x16.rank) ∈ dot_S1024x16_S512x16_S1024x512_1_1_0_0_n_n.rhsBatch by decide), dif_pos (show (0 : Fin S512x16.rank) ∈ dot_S1024x16_S512x16_S1024x512_1_1_0_0_n_n.rhsNonContracting by decide)]
  rfl
theorem rhs_up_1 (i : S1024x512.Idx) (q : dot_S1024x16_S512x16_S1024x512_1_1_0_0_n_n.contr.Idx) :
    (dot_S1024x16_S512x16_S1024x512_1_1_0_0_n_n.rhsIdx i q 1).val = (q ⟨0, by decide⟩).val :=
  dot_S1024x16_S512x16_S1024x512_1_1_0_0_n_n.rhsIdx_val_of_single rfl i q

/-! ## The three products into a zero accumulator, as sums -/

/-- Rows of the `x` block against rows of the `weight` block, over the block's 1024 features. -/
theorem matmul_base_apply (l : FVec Ideal S1024x1024 .bf16) (r : FVec Ideal S512x1024 .bf16) (i : S1024x512.Idx) :
    matmul dot_S1024x1024_S512x1024_S1024x512_1_1_0_0_n_n none l r (constant (F := Ideal) S1024x512 .f32 0x00000000#32) i
      = ∑ k : Fin 1024, l (ix2 (i 0) k) * r (ix2 (i 1) k) := by
  simp only [matmul]
  rw [Ideal.matmul_constant_zero_apply, ← Equiv.sum_comp (ValueIdx.contrEquiv1 dot_S1024x1024_S512x1024_S1024x512_1_1_0_0_n_n 1024 rfl rfl).symm]
  refine Finset.sum_congr rfl fun k _ => ?_
  have hk := ValueIdx.contrEquiv1_symm_val dot_S1024x1024_S512x1024_S1024x512_1_1_0_0_n_n 1024 rfl rfl k
  have el : dot_S1024x1024_S512x1024_S1024x512_1_1_0_0_n_n.lhsIdx i ((ValueIdx.contrEquiv1 dot_S1024x1024_S512x1024_S1024x512_1_1_0_0_n_n 1024 rfl rfl).symm k) = ix2 (i 0) k := funext fun a => Fin.ext (by
    match a with
    | ⟨0, _⟩ => exact lhs_base_0 _ _
    | ⟨1, _⟩ => exact (lhs_base_1 _ _).trans hk)
  have er : dot_S1024x1024_S512x1024_S1024x512_1_1_0_0_n_n.rhsIdx i ((ValueIdx.contrEquiv1 dot_S1024x1024_S512x1024_S1024x512_1_1_0_0_n_n 1024 rfl rfl).symm k) = ix2 (i 1) k := funext fun a => Fin.ext (by
    match a with
    | ⟨0, _⟩ => exact rhs_base_0 _ _
    | ⟨1, _⟩ => exact (rhs_base_1 _ _).trans hk)
  rw [el, er]
  rfl

/-- Rows of the `x` block against rows of the `lora_A` block, over the block's 1024 features. -/
theorem matmul_low_apply (l : FVec Ideal S1024x1024 .bf16) (r : FVec Ideal S16x1024 .bf16) (i : S1024x16.Idx) :
    matmul dot_S1024x1024_S16x1024_S1024x16_1_1_0_0_n_n none l r (constant (F := Ideal) S1024x16 .f32 0x00000000#32) i
      = ∑ k : Fin 1024, l (ix2 (i 0) k) * r (ix2 (i 1) k) := by
  simp only [matmul]
  rw [Ideal.matmul_constant_zero_apply, ← Equiv.sum_comp (ValueIdx.contrEquiv1 dot_S1024x1024_S16x1024_S1024x16_1_1_0_0_n_n 1024 rfl rfl).symm]
  refine Finset.sum_congr rfl fun k _ => ?_
  have hk := ValueIdx.contrEquiv1_symm_val dot_S1024x1024_S16x1024_S1024x16_1_1_0_0_n_n 1024 rfl rfl k
  have el : dot_S1024x1024_S16x1024_S1024x16_1_1_0_0_n_n.lhsIdx i ((ValueIdx.contrEquiv1 dot_S1024x1024_S16x1024_S1024x16_1_1_0_0_n_n 1024 rfl rfl).symm k) = ix2 (i 0) k := funext fun a => Fin.ext (by
    match a with
    | ⟨0, _⟩ => exact lhs_low_0 _ _
    | ⟨1, _⟩ => exact (lhs_low_1 _ _).trans hk)
  have er : dot_S1024x1024_S16x1024_S1024x16_1_1_0_0_n_n.rhsIdx i ((ValueIdx.contrEquiv1 dot_S1024x1024_S16x1024_S1024x16_1_1_0_0_n_n 1024 rfl rfl).symm k) = ix2 (i 1) k := funext fun a => Fin.ext (by
    match a with
    | ⟨0, _⟩ => exact rhs_low_0 _ _
    | ⟨1, _⟩ => exact (rhs_low_1 _ _).trans hk)
  rw [el, er]
  rfl

/-- Rows of the narrow accumulator against rows of the `lora_B` block, over the 16 ranks. -/
theorem matmul_up_apply (l : FVec Ideal S1024x16 .bf16) (r : FVec Ideal S512x16 .bf16) (i : S1024x512.Idx) :
    matmul dot_S1024x16_S512x16_S1024x512_1_1_0_0_n_n none l r (constant (F := Ideal) S1024x512 .f32 0x00000000#32) i
      = ∑ k : Fin 16, l (ix2 (i 0) k) * r (ix2 (i 1) k) := by
  simp only [matmul]
  rw [Ideal.matmul_constant_zero_apply, ← Equiv.sum_comp (ValueIdx.contrEquiv1 dot_S1024x16_S512x16_S1024x512_1_1_0_0_n_n 16 rfl rfl).symm]
  refine Finset.sum_congr rfl fun k _ => ?_
  have hk := ValueIdx.contrEquiv1_symm_val dot_S1024x16_S512x16_S1024x512_1_1_0_0_n_n 16 rfl rfl k
  have el : dot_S1024x16_S512x16_S1024x512_1_1_0_0_n_n.lhsIdx i ((ValueIdx.contrEquiv1 dot_S1024x16_S512x16_S1024x512_1_1_0_0_n_n 16 rfl rfl).symm k) = ix2 (i 0) k := funext fun a => Fin.ext (by
    match a with
    | ⟨0, _⟩ => exact lhs_up_0 _ _
    | ⟨1, _⟩ => exact (lhs_up_1 _ _).trans hk)
  have er : dot_S1024x16_S512x16_S1024x512_1_1_0_0_n_n.rhsIdx i ((ValueIdx.contrEquiv1 dot_S1024x16_S512x16_S1024x512_1_1_0_0_n_n 16 rfl rfl).symm k) = ix2 (i 1) k := funext fun a => Fin.ext (by
    match a with
    | ⟨0, _⟩ => exact rhs_up_0 _ _
    | ⟨1, _⟩ => exact (rhs_up_1 _ _).trans hk)
  rw [el, er]
  rfl

/-! ## The payloads -/

/-- The reset values are the zero blocks. -/
theorem zero_wide_apply (y : S1024x512.Idx) : k0_pay1 (F := Ideal) y = 0 := by
  unfold k0_pay1
  simp only [shapeCast_self]
  exact Ideal.ofBits_zero_f32
theorem zero_narrow_apply (y : S1024x16.Idx) : k0_pay2 (F := Ideal) y = 0 := by
  unfold k0_pay2
  simp only [shapeCast_self]
  exact Ideal.ofBits_zero_f32

/-- The wide accumulator's update. -/
theorem wide_apply (x : Vec Ideal S1024x1024 .f32) (w : Vec Ideal S512x1024 .f32) (acc : Vec Ideal S1024x512 .f32) (y : S1024x512.Idx) :
    k0_pay4 x w acc y = acc y + ∑ l : Fin 1024, x (ix2 (y 0) l) * w (ix2 (y 1) l) := by
  unfold k0_pay4 k0_pay3
  simp only [shapeCast_self]
  rw [addf_apply, matmul_base_apply]
  rfl

/-- The narrow accumulator's update. -/
theorem narrow_apply (x : Vec Ideal S1024x1024 .f32) (a : Vec Ideal S16x1024 .f32) (acc : Vec Ideal S1024x16 .f32) (y : S1024x16.Idx) :
    k0_pay5 x a acc y = acc y + ∑ l : Fin 1024, x (ix2 (y 0) l) * a (ix2 (y 1) l) := by
  unfold k0_pay5 k0_pay3
  simp only [shapeCast_self]
  rw [addf_apply, matmul_low_apply]
  rfl

/-- The epilogue. -/
theorem epilogue_apply (b : Vec Ideal S512x16 .f32) (lo : Vec Ideal S1024x16 .f32) (ba : Vec Ideal S1024x512 .f32) (y : S1024x512.Idx) :
    k0_pay6 b lo ba y = ba y + (∑ r : Fin 16, lo (ix2 (y 0) r) * b (ix2 (y 1) r)) * Ideal.ofBits .f32 0x40000000#32 := by
  unfold k0_pay6
  rw [addf_apply, mulf_apply, matmul_up_apply]
  rfl

end Cert.KernelIdeal.BodyValue

end
-- ==== Proof.KernelValue.lean ====
/-
  The kernel's result array at the exact instance.

  The grid is 8 × 8 × 4: point t = 32·i + 4·j + k works on row block i (1024 rows of `x`), column block j (512 rows of
  `weight` and of `lora_B`) and feature block k (1024 of the 4096 features). Along k the body keeps two accumulators:
  the wide one, [1024,512], ends the run at ∑ₖ (x block)·(weight block)ᵀ, the narrow one, [1024,16], at
  ∑ₖ (x block)·(lora_A block)ᵀ; at k = 3 the output block (i, j) is written as wide + (narrow·(lora_B block)ᵀ)·2.
  Read at an index and with the four partial contractions joined into whole ones, that is the specification.
-/
import proofs.«105855_j22780506538133_1_alg».proof.Proof.Gen.KernelIdeal.Value
import proofs.«105855_j22780506538133_1_alg».proof.Proof.Pieces
import proofs.«105855_j22780506538133_1_alg».proof.Proof.BodyValue
import proofs.«105855_j22780506538133_1_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Lora

open Cert.KernelIdeal Cert.KernelIdeal.Gen Cert.KernelIdeal.Value Idealize.ShloMosaic.ValueIdx
open scoped BigOperators

variable (m : (ℓ : Loc nD τ sig) → Buf (Elt Ideal) ℓ) (ρ : Dev nD → PrngReg)

/-! ## The arrays and the blocks, at their literal types -/

abbrev xArr (c : Dev nD) : Vec Ideal S8192x4096 .f32 := m ((c : Thread nD τ).loc main_arg0)
abbrev wArr (c : Dev nD) : Vec Ideal S4096x4096 .f32 := m ((c : Thread nD τ).loc main_arg1)
abbrev aArr (c : Dev nD) : Vec Ideal S16x4096 .f32 := m ((c : Thread nD τ).loc main_arg2)
abbrev bArr (c : Dev nD) : Vec Ideal S4096x16 .f32 := m ((c : Thread nD τ).loc main_arg3)

abbrev xBlk (c : Dev nD) (t : Fin cfg0.N) : Vec Ideal S1024x1024 .f32 := iblk m c 0 t
abbrev wBlk (c : Dev nD) (t : Fin cfg0.N) : Vec Ideal S512x1024 .f32 := iblk m c 1 t
abbrev aBlk (c : Dev nD) (t : Fin cfg0.N) : Vec Ideal S16x1024 .f32 := iblk m c 2 t
abbrev bBlk (c : Dev nD) (t : Fin cfg0.N) : Vec Ideal S512x16 .f32 := iblk m c 3 t

/-- The printed index maps over the grid: point t = 32·i + 4·j + k reads `x` at block (i, k), `weight` at (j, k),
    `lora_A` at (0, k), `lora_B` at (j, 0), and writes block (i, j). -/
theorem idx_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = 0 ∧ win0_2.index t (1 : Fin 2) = t.val % 4
    ∧ win0_3.index t (0 : Fin 2) = t.val / 4 % 8 ∧ win0_3.index t (1 : Fin 2) = 0
    ∧ win0_4.index t (0 : Fin 2) = t.val / 32 ∧ win0_4.index t (1 : Fin 2) = t.val / 4 % 8 :=
  (by decide +kernel : ∀ t : Fin grid0.N, _)

/-- An element of the `x` block of point t is the element of `x` at row 1024·i + (row in block), feature 1024·k + (feature in block). -/
theorem xBlk_apply (c : Dev nD) (t : Fin cfg0.N) (y : S1024x1024.Idx) (j : S8192x4096.Idx)
    (h0 : (j 0).val = 1024 * (t.val / 32) + (y 0).val) (h1 : (j 1).val = 1024 * (t.val % 4) + (y 1).val) :
    xBlk m c t y = xArr m c j := by
  obtain ⟨e0, e1, -⟩ := idx_facts t
  show iblk m c 0 t y = _
  unfold iblk
  rw [View.read_apply]
  show V m c main_arg0 _ = m (c.tc.loc main_arg0) _
  unfold V
  congr 1
  funext a
  apply Fin.ext
  match a with
  | ⟨0, _⟩ => show win0_0.index t (0 : Fin 2) * 1024 + 1 * (y 0).val = (j 0).val; rw [e0, h0]; omega
  | ⟨1, _⟩ => show win0_0.index t (1 : Fin 2) * 1024 + 1 * (y 1).val = (j 1).val; rw [e1, h1]; omega

/-- Likewise the `weight` block: row 512·j + (row in block), feature 1024·k + (feature in block). -/
theorem wBlk_apply (c : Dev nD) (t : Fin cfg0.N) (y : S512x1024.Idx) (j : S4096x4096.Idx)
    (h0 : (j 0).val = 512 * (t.val / 4 % 8) + (y 0).val) (h1 : (j 1).val = 1024 * (t.val % 4) + (y 1).val) :
    wBlk m c t y = wArr m c j := by
  obtain ⟨-, -, e0, e1, -⟩ := idx_facts t
  show iblk m c 1 t y = _
  unfold iblk
  rw [View.read_apply]
  show V m c main_arg1 _ = m (c.tc.loc main_arg1) _
  unfold V
  congr 1
  funext a
  apply Fin.ext
  match a with
  | ⟨0, _⟩ => show win0_1.index t (0 : Fin 2) * 512 + 1 * (y 0).val = (j 0).val; rw [e0, h0]; omega
  | ⟨1, _⟩ => show win0_1.index t (1 : Fin 2) * 1024 + 1 * (y 1).val = (j 1).val; rw [e1, h1]; omega

/-- The `lora_A` block: every rank, feature 1024·k + (feature in block). -/
theorem aBlk_apply (c : Dev nD) (t : Fin cfg0.N) (y : S16x1024.Idx) (j : S16x4096.Idx)
    (h0 : (j 0).val = (y 0).val) (h1 : (j 1).val = 1024 * (t.val % 4) + (y 1).val) :
    aBlk m c t y = aArr m c j := by
  obtain ⟨-, -, -, -, e0, e1, -⟩ := idx_facts t
  show iblk m c 2 t y = _
  unfold iblk
  rw [View.read_apply]
  show V m c main_arg2 _ = m (c.tc.loc main_arg2) _
  unfold V
  congr 1
  funext a
  apply Fin.ext
  match a with
  | ⟨0, _⟩ => show win0_2.index t (0 : Fin 2) * 16 + 1 * (y 0).val = (j 0).val; rw [e0, h0]; omega
  | ⟨1, _⟩ => show win0_2.index t (1 : Fin 2) * 1024 + 1 * (y 1).val = (j 1).val; rw [e1, h1]; omega

/-- The `lora_B` block: row 512·j + (row in block), every rank. -/
theorem bBlk_apply (c : Dev nD) (t : Fin cfg0.N) (y : S512x16.Idx) (j : S4096x16.Idx)
    (h0 : (j 0).val = 512 * (t.val / 4 % 8) + (y 0).val) (h1 : (j 1).val = (y 1).val) :
    bBlk m c t y = bArr m c j := by
  obtain ⟨-, -, -, -, -, -, e0, e1, -⟩ := idx_facts t
  show iblk m c 3 t y = _
  unfold iblk
  rw [View.read_apply]
  show V m c main_arg3 _ = m (c.tc.loc main_arg3) _
  unfold V
  congr 1
  funext a
  apply Fin.ext
  match a with
  | ⟨0, _⟩ => show win0_3.index t (0 : Fin 2) * 512 + 1 * (y 0).val = (j 0).val; rw [e0, h0]; omega
  | ⟨1, _⟩ => show win0_3.index t (1 : Fin 2) * 16 + 1 * (y 1).val = (j 1).val; rw [e1, h1]; omega

/-! ## The two accumulators over a run of feature blocks -/

/-- What any point leaves in the wide accumulator, over what the point before left: the update by the point's blocks,
    of the zero block at the first feature block of a run. -/
theorem wide_step (c : Dev nD) (n : ℕ) (hb : n < cfg0.N) (acc : Vec Ideal S1024x512 .f32) :
    scAt0_0 m c n hb acc = k0_pay4 (xBlk m c ⟨n, hb⟩) (wBlk m c ⟨n, hb⟩) (if n % 4 = 0 then k0_pay1 (F := Ideal) else acc) := by
  unfold scAt0_0
  by_cases h0 : n % 4 = 0
  · have h1 : ¬n % 4 = 3 := by omega
    rw [dif_pos h0, dif_neg h1, if_pos h0]
    exact Pieces.base_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  · by_cases h1 : n % 4 = 3
    · rw [dif_neg h0, dif_pos h1, if_neg h0]
      exact Pieces.base_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2
    · rw [dif_neg h0, dif_neg h1, if_neg h0]
      exact Pieces.base_mid c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2

/-- Likewise the narrow accumulator. -/
theorem narrow_step (c : Dev nD) (n : ℕ) (hb : n < cfg0.N) (acc : Vec Ideal S1024x16 .f32) :
    scAt0_1 m c n hb acc = k0_pay5 (xBlk m c ⟨n, hb⟩) (aBlk m c ⟨n, hb⟩) (if n % 4 = 0 then k0_pay2 (F := Ideal) else acc) := by
  unfold scAt0_1
  by_cases h0 : n % 4 = 0
  · have h1 : ¬n % 4 = 3 := by omega
    rw [dif_pos h0, dif_neg h1, if_pos h0]
    exact Pieces.low_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
  · by_cases h1 : n % 4 = 3
    · rw [dif_neg h0, dif_pos h1, if_neg h0]
      exact Pieces.low_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc
    · rw [dif_neg h0, dif_neg h1, if_neg h0]
      exact Pieces.low_mid c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc

/-- Point `n`'s addend to the wide accumulator at an element: the point's `x` row against its `weight` row, over the
    point's 1024 features (zero past the grid, where it is never used). -/
def wideAdd (c : Dev nD) (n : ℕ) (y : S1024x512.Idx) : EReal :=
  if h : n < cfg0.N then ∑ l : Fin 1024, xBlk m c ⟨n, h⟩ (ix2 (y 0) l) * wBlk m c ⟨n, h⟩ (ix2 (y 1) l) else 0

/-- Point `n`'s addend to the narrow accumulator: the point's `x` row against its `lora_A` row. -/
def narrowAdd (c : Dev nD) (n : ℕ) (y : S1024x16.Idx) : EReal :=
  if h : n < cfg0.N then ∑ l : Fin 1024, xBlk m c ⟨n, h⟩ (ix2 (y 0) l) * aBlk m c ⟨n, h⟩ (ix2 (y 1) l) else 0

/-- After point t the wide accumulator holds, element by element, zero plus the addends of its run's points so far. -/
theorem wide_eq (c : Dev nD) (t : Fin cfg0.N) (y : S1024x512.Idx) :
    (outsAt0 m c t.val t.isLt).2.1 y = 0 + ∑ s ∈ Finset.range (t.val % 4 + 1), wideAdd m c (4 * (t.val / 4) + s) y := by
  rw [soutsAt0_0_eq m c t]
  refine Pipeline.accAt_add_apply (ι := S1024x512.Idx) (β := EReal) _ _ (fun _ => 0) (wideAdd m c) (4 * (t.val / 4)) 3 ?_ ?_
    (t.val % 4) (by omega) _ y
  · intro h i
    show scAt0_0 m c (4 * (t.val / 4)) h _ i = _
    rw [wide_step, if_pos (by omega), BodyValue.wide_apply, BodyValue.zero_wide_apply]
    unfold wideAdd
    rw [dif_pos h]
  · intro n h acc i h1 h2
    show scAt0_0 m c n h acc i = _
    rw [wide_step, if_neg (by omega), BodyValue.wide_apply]
    unfold wideAdd
    rw [dif_pos h]

/-- After point t the narrow accumulator holds zero plus the addends of its run's points so far. -/
theorem narrow_eq (c : Dev nD) (t : Fin cfg0.N) (y : S1024x16.Idx) :
    (outsAt0 m c t.val t.isLt).2.2 y = 0 + ∑ s ∈ Finset.range (t.val % 4 + 1), narrowAdd m c (4 * (t.val / 4) + s) y := by
  rw [soutsAt0_1_eq m c t]
  refine Pipeline.accAt_add_apply (ι := S1024x16.Idx) (β := EReal) _ _ (fun _ => 0) (narrowAdd m c) (4 * (t.val / 4)) 3 ?_ ?_
    (t.val % 4) (by omega) _ y
  · intro h i
    show scAt0_1 m c (4 * (t.val / 4)) h _ i = _
    rw [narrow_step, if_pos (by omega), BodyValue.narrow_apply, BodyValue.zero_narrow_apply]
    unfold narrowAdd
    rw [dif_pos h]
  · intro n h acc i h1 h2
    show scAt0_1 m c n h acc i = _
    rw [narrow_step, if_neg (by omega), BodyValue.narrow_apply]
    unfold narrowAdd
    rw [dif_pos h]

/-! ## The output block, written at the last feature block of a run -/

/-- There the output block is the epilogue of the `lora_B` block and of both accumulators as this point leaves them. -/
theorem out_eq (c : Dev nD) (t : Fin cfg0.N) (h1 : t.val % 4 = 3) :
    (outsAt0 m c t.val t.isLt).1
      = k0_pay6 (bBlk m c t) ((outsAt0 m c t.val t.isLt).2.2) ((outsAt0 m c t.val t.isLt).2.1) := by
  have h0 : ¬t.val % 4 = 0 := by omega
  rw [outsAt0_C m c t h0 h1]
  dsimp only
  rw [Pieces.out_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    Pieces.base_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
    Pieces.low_last c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2]

/-- Element by element: the wide sum of the run's four addends, plus the scale times the contraction, over the 16
    ranks, of the narrow sums with the `lora_B` block's row. -/
theorem out_apply (c : Dev nD) (t : Fin cfg0.N) (h1 : t.val % 4 = 3) (y : S1024x512.Idx) :
    (outsAt0 m c t.val t.isLt).1 y
      = (0 + ∑ s ∈ Finset.range (3 + 1), wideAdd m c (4 * (t.val / 4) + s) y)
        + (∑ r : Fin 16, (0 + ∑ s ∈ Finset.range (3 + 1), narrowAdd m c (4 * (t.val / 4) + s) (ix2 (y 0) r))
            * bBlk m c t (ix2 (y 1) r)) * Ideal.ofBits .f32 0x40000000#32 := by
  rw [out_eq m c t h1, BodyValue.epilogue_apply, wide_eq, h1]
  simp only [narrow_eq, h1]

/-! ## From the blocks to the arrays -/

/-- A point's wide addend is the `s`-th block of the contraction of a row of `x` with a row of `weight`. -/
theorem wideAdd_eq (c : Dev nD) (t : Fin cfg0.N) (s : ℕ) (hs : s < 4) (y : S1024x512.Idx) (n : Fin 8192) (o : Fin 4096)
    (hn : n.val = 1024 * (t.val / 32) + (y 0).val) (ho : o.val = 512 * (t.val / 4 % 8) + (y 1).val) :
    wideAdd m c (4 * (t.val / 4) + s) y = Cert.Spec.blockDot 1024 (xArr m c) (wArr m c) n o s := by
  have hN : cfg0.N = 256 := N_0
  have ht : t.val < cfg0.N := t.isLt
  have hlt : 4 * (t.val / 4) + s < cfg0.N := by omega
  unfold wideAdd Cert.Spec.blockDot
  rw [dif_pos hlt]
  refine Finset.sum_congr rfl fun l _ => ?_
  have hl : l.val < 1024 := l.isLt
  have hk : 1024 * s + l.val < 4096 := by omega
  rw [dif_pos hk]
  refine congrArg₂ (· * ·) ?_ ?_
  · exact xBlk_apply m c ⟨4 * (t.val / 4) + s, hlt⟩ (ix2 (y 0) l) (ix2 n ⟨1024 * s + l.val, hk⟩)
      (by show n.val = 1024 * ((4 * (t.val / 4) + s) / 32) + (y 0).val; omega)
      (by show 1024 * s + l.val = 1024 * ((4 * (t.val / 4) + s) % 4) + l.val; omega)
  · exact wBlk_apply m c ⟨4 * (t.val / 4) + s, hlt⟩ (ix2 (y 1) l) (ix2 o ⟨1024 * s + l.val, hk⟩)
      (by show o.val = 512 * ((4 * (t.val / 4) + s) / 4 % 8) + (y 1).val; omega)
      (by show 1024 * s + l.val = 1024 * ((4 * (t.val / 4) + s) % 4) + l.val; omega)

/-- A point's narrow addend is the `s`-th block of the contraction of a row of `x` with a row of `lora_A`. -/
theorem narrowAdd_eq (c : Dev nD) (t : Fin cfg0.N) (s : ℕ) (hs : s < 4) (y : S1024x16.Idx) (n : Fin 8192) (r : Fin 16)
    (hn : n.val = 1024 * (t.val / 32) + (y 0).val) (hr : r.val = (y 1).val) :
    narrowAdd m c (4 * (t.val / 4) + s) y = Cert.Spec.blockDot 1024 (xArr m c) (aArr m c) n r s := by
  have hN : cfg0.N = 256 := N_0
  have ht : t.val < cfg0.N := t.isLt
  have hlt : 4 * (t.val / 4) + s < cfg0.N := by omega
  unfold narrowAdd Cert.Spec.blockDot
  rw [dif_pos hlt]
  refine Finset.sum_congr rfl fun l _ => ?_
  have hl : l.val < 1024 := l.isLt
  have hk : 1024 * s + l.val < 4096 := by omega
  rw [dif_pos hk]
  refine congrArg₂ (· * ·) ?_ ?_
  · exact xBlk_apply m c ⟨4 * (t.val / 4) + s, hlt⟩ (ix2 (y 0) l) (ix2 n ⟨1024 * s + l.val, hk⟩)
      (by show n.val = 1024 * ((4 * (t.val / 4) + s) / 32) + (y 0).val; omega)
      (by show 1024 * s + l.val = 1024 * ((4 * (t.val / 4) + s) % 4) + l.val; omega)
  · exact aBlk_apply m c ⟨4 * (t.val / 4) + s, hlt⟩ (ix2 (y 1) l) (ix2 r ⟨1024 * s + l.val, hk⟩)
      (by show r.val = (y 1).val; exact hr)
      (by show 1024 * s + l.val = 1024 * ((4 * (t.val / 4) + s) % 4) + l.val; omega)

/-- The result array: the specification of the four argument arrays. -/
abbrev result (c : Dev nD) : Vec Ideal S8192x4096 .f32 :=
  Cert.Spec.lora (xArr m c) (wArr m c) (aArr m c) (bArr m c)

/-- An element of the output block of a writing point is the specification at the element's place in the array:
    the four partial contractions of each accumulator join into the whole ones. -/
theorem out_spec (c : Dev nD) (t : Fin cfg0.N) (h1 : t.val % 4 = 3) (y : S1024x512.Idx) (j : S8192x4096.Idx)
    (c0 : (j 0).val = 1024 * (t.val / 32) + (y 0).val) (c1 : (j 1).val = 512 * (t.val / 4 % 8) + (y 1).val) :
    (outsAt0 m c t.val t.isLt).1 y = result m c j := by
  rw [out_apply m c t h1 y]
  show _ = Cert.Spec.lora (xArr m c) (wArr m c) (aArr m c) (bArr m c) j
  unfold Cert.Spec.lora
  rw [zero_add]
  refine congrArg₂ (· + ·) ?_ (congrArg (· * Ideal.ofBits .f32 0x40000000#32) ?_)
  · rw [Cert.Spec.rowDot_eq_sum_blockDot 4 1024 (by norm_num) (xArr m c) (wArr m c) (j 0) (j 1)]
    exact Finset.sum_congr rfl fun s hs => wideAdd_eq m c t s (Finset.mem_range.mp hs) y (j 0) (j 1) c0 c1
  · refine Finset.sum_congr rfl fun r _ => ?_
    rw [zero_add, Cert.Spec.rowDot_eq_sum_blockDot 4 1024 (by norm_num) (xArr m c) (aArr m c) (j 0) r]
    refine congrArg₂ (· * ·) ?_ ?_
    · exact Finset.sum_congr rfl fun s hs => narrowAdd_eq m c t s (Finset.mem_range.mp hs) (ix2 (y 0) r) (j 0) r c0 rfl
    · exact bBlk_apply m c t (ix2 (y 1) r) (ix2 (j 1) r) c1 rfl

/-! ## The array after the run -/

/-- What a writing point writes back is its block of the result array. -/
theorem flushed_eq (c : Dev nD) (t : Fin cfg0.N) (hf : (cfg0.win 4).flush t = true) :
    (dats m 0 c).flushed 4 t = ((cfg0.win 4).blk t).view.read (Elt Ideal) (result m c) := by
  have h1 : t.val % 4 = 3 := (flush0_4 t).mp hf
  obtain ⟨-, -, -, -, -, -, -, -, e0, e1⟩ := idx_facts t
  rw [flushed4]
  funext y
  show (outsAt0 m c t.val t.isLt).1 y = result m c (((cfg0.win 4).blk t).view.emb y)
  exact out_spec m c t h1 y _
    (by show win0_4.index t (0 : Fin 2) * 1024 + 1 * (y 0).val = _; rw [e0]; omega)
    (by show win0_4.index t (1 : Fin 2) * 512 + 1 * (y 1).val = _; rw [e1]; omega)

/-- An index of the array is in point `t`'s output block iff each coordinate is in the block's range on its axis. -/
theorem mem_blk (t : Fin cfg0.N) (i : S8192x4096.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v0).slice (win0_4.rect t)).set ↔ _
  rw [View.set_slice_whole, Rect.mem_set_unit]
  exact Iff.rfl

/-- Every index of the result array is in the output block of the writing point of its row and column blocks:
    point 32·(row / 1024) + 4·(column / 512) + 3. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 256 := N_0
  obtain ⟨tv, htv⟩ : ∃ tv : ℕ, tv = 32 * ((i 0).val / 1024) + 4 * ((i 1).val / 512) + 3 := ⟨_, rfl⟩
  have hlt : tv < cfg0.N := by omega
  obtain ⟨-, -, -, -, -, -, -, -, e0, e1⟩ := idx_facts ⟨tv, hlt⟩
  refine ⟨⟨tv, hlt⟩, (flush0_4 _).mpr (by show tv % 4 = 3; omega), ?_⟩
  rw [mem_blk]
  intro a
  match a with
  | ⟨0, _⟩ =>
    show win0_4.index ⟨tv, hlt⟩ (0 : Fin 2) * 1024 ≤ (i 0).val ∧ (i 0).val < win0_4.index ⟨tv, hlt⟩ (0 : Fin 2) * 1024 + 1024
    rw [e0]; show tv / 32 * 1024 ≤ (i 0).val ∧ (i 0).val < tv / 32 * 1024 + 1024; omega
  | ⟨1, _⟩ =>
    show win0_4.index ⟨tv, hlt⟩ (1 : Fin 2) * 512 ≤ (i 1).val ∧ (i 1).val < win0_4.index ⟨tv, hlt⟩ (1 : Fin 2) * 512 + 512
    rw [e1]; show tv / 4 % 8 * 512 ≤ (i 1).val ∧ (i 1).val < tv / 4 % 8 * 512 + 512; omega

/-- So the result array ends holding the specification of the argument arrays. -/
theorem final (c : Dev nD) : (dats m 0 c).arrAt 4 cfg0.N = result m c :=
  (dats m 0 c).arrAt_eq_of_cover 4 (result m c) (flushed_eq m c) cover

/-- The kernel's run, read: the result array at the specification, the four arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Lora

end
-- ==== Proof.lean ====
/-
  The certificate of a LoRA linear layer, out = x·weightᵀ + 2·(x·lora_Aᵀ)·lora_Bᵀ, computed by a Pallas kernel on an
  8 × 8 × 4 grid (row blocks × column blocks × feature blocks) against the plain einsum reference.

  Over the extended reals both programs compute, at every index (n, o),

      ∑ₖ x[n,k]·w[o,k] + (∑ᵣ (∑ₖ x[n,k]·a[r,k])·b[o,r])·2        (Proof/Spec.lean).

  The reference does so literally (Proof/RefSpec.lean). The kernel accumulates the two contractions over k in four
  blocks of 1024 features, in two buffers it carries from one grid point to the next, and writes the output block at
  the last feature block; changes of float format are the identity there and each matrix product is an exact sum
  (Proof/BodyValue.lean, Proof/KernelValue.lean). The only law joining the two sides is that a sum over 4096 features
  is the sum of its four blocks' sums: associativity and commutativity of +, which hold on all of the extended reals,
  so the finiteness of the inputs is never used.
  The three frames are the generated ones (the reference's is its run with the result dropped); the idealization
  rewrote nothing, so `preserves` is trivial.
-/
import proofs.«105855_j22780506538133_1_alg».proof.Defs
import proofs.«105855_j22780506538133_1_alg».proof.Proof.Gen.Kernel
import proofs.«105855_j22780506538133_1_alg».proof.Proof.Gen.Kernel.Skeleton
import proofs.«105855_j22780506538133_1_alg».proof.Proof.Gen.Kernel.Launch
import proofs.«105855_j22780506538133_1_alg».proof.Proof.Gen.Kernel.Points
import proofs.«105855_j22780506538133_1_alg».proof.Proof.Gen.Kernel.Frame
import proofs.«105855_j22780506538133_1_alg».proof.Proof.Gen.KernelIdeal
import proofs.«105855_j22780506538133_1_alg».proof.Proof.Gen.KernelIdeal.Skeleton
import proofs.«105855_j22780506538133_1_alg».proof.Proof.Gen.KernelIdeal.Launch
import proofs.«105855_j22780506538133_1_alg».proof.Proof.Gen.KernelIdeal.Points
import proofs.«105855_j22780506538133_1_alg».proof.Proof.Gen.KernelIdeal.Frame
import proofs.«105855_j22780506538133_1_alg».proof.Proof.Gen.ReferenceIdeal
import proofs.«105855_j22780506538133_1_alg».proof.Proof.Gen.Pre_finite_inputs
import proofs.«105855_j22780506538133_1_alg».proof.Proof.Gen.KernelIdeal.Value
import proofs.«105855_j22780506538133_1_alg».proof.Proof.Gen.ReferenceIdeal.Run
import proofs.«105855_j22780506538133_1_alg».proof.Proof.Gen.ReferenceIdeal.Read
import proofs.«105855_j22780506538133_1_alg».proof.Proof.RefSpec
import proofs.«105855_j22780506538133_1_alg».proof.Proof.KernelValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the specification of arguments that agree. -/
theorem algebraic : Cert.algebraic_KernelIdeal_ReferenceIdeal := by
  intro m ρ m' ρ' _ hagree
  refine ⟨fun c => Cert.KernelIdeal.Lora.result m c, Cert.KernelIdeal.Lora.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefSpec.ref_eq_lora,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
